-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S64x4096 .f32) (main_arg3 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S1x256x4096 : Shape := ⟨3, ![1, 256, 4096]⟩
abbrev S256x4096 : Shape := ⟨2, ![256, 4096]⟩
abbrev S256x64 : Shape := ⟨2, ![256, 64]⟩
abbrev S4096 : Shape := ⟨1, ![4096]⟩
abbrev S256 : Shape := ⟨1, ![256]⟩

abbrev nBuf : Space → Nat
  | .hbm => 6
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S4x2048x4096, .f32⟩
  | .hbm, ⟨5, _⟩ => ⟨S4096, .f32⟩
  | .local _ .vmem, ⟨0, _⟩ => ⟨S1x256x4096, .f32⟩
  | .local _ .vmem, ⟨1, _⟩ => ⟨S1x256x4096, .f32⟩
  | .local _ .vmem, ⟨2, _⟩ => ⟨S64x4096, .f32⟩
  | .local _ .vmem, ⟨3, _⟩ => ⟨S4096x64, .f32⟩
  | .local _ .vmem, ⟨4, _⟩ => ⟨S1x256x4096, .f32⟩
  | .local _ .vmem, ⟨5, _⟩ => ⟨S1x256x4096, .f32⟩
  | .local _ .vmem, ⟨6, _⟩ => ⟨S256x4096, .f32⟩
  | .local _ .vmem, ⟨7, _⟩ => ⟨S256x4096, .f32⟩
  | .local _ .vmem, ⟨8, _⟩ => ⟨S256x64, .f32⟩
  | .local _ .vmem, ⟨9, _⟩ => ⟨S256x64, .f32⟩
  | .local _ .vmem, ⟨10, _⟩ => ⟨S64x4096, .f32⟩
  | .local _ .vmem, ⟨11, _⟩ => ⟨S256, .f32⟩
  | .local _ .vmem, ⟨12, _⟩ => ⟨S256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S4096x64_S4096x64_0_0 : ∀ a, (![0, 0] : Fin 2 → Nat) a + S4096x64.size a ≤ S4096x64.size a
  h_S4096x64 : 0 < S4096x64.numel
  shapeCasts_S256x4096_S1x256x4096 : S256x4096.ShapeCasts S1x256x4096
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  reduces_S256x4096_S256 : S256x4096.Reduces [1] S256
  inb_S256_S256_0 : ∀ a, (![0] : Fin 1 → Nat) a + S256.size a ≤ S256.size a
  h_S256 : 0 < S256.numel
  dot_S256x4096_S64x4096_S256x64_1_1_0_0_n_n_wf : DotDims.WF S256x4096 S64x4096 S256x64 [1] [1] [0] [0] [] []
  dot_S256x64_S4096x64_S256x4096_1_1_0_0_n_n_wf : DotDims.WF S256x64 S4096x64 S256x4096 [1] [1] [0] [0] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x2048x4096.size a
  hwx0_0 : ∀ i : grid0.Coords, EltTy.bits .f32 = 32 ∨ (Rect.block (s := S4x2048x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x2048x4096.size a
  hwx0_3 : ∀ i : grid0.Coords, EltTy.bits .f32 = 32 ∨ (Rect.block (s := S4x2048x4096) S1x256x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S4096x64.size a
  hwx1_1 : ∀ i : grid1.Coords, EltTy.bits .f32 = 32 ∨ (Rect.block (s := S4096x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .f32 = 32 ∨ (Rect.block (s := S64x4096) S64x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S4096.size a
  hwx1_3 : ∀ i : grid1.Coords, EltTy.bits .f32 = 32 ∨ (Rect.block (s := S4096) S256.size (cc1_transform_3 i) (hinb1_3 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S4x2048x64 : Shape := ⟨3, ![4, 2048, 64]⟩
abbrev S_ : Shape := ⟨0, ![]⟩
abbrev S4096 : Shape := ⟨1, ![4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S4x2048x64, .f32⟩
  | .hbm, ⟨5, _⟩ => ⟨S4x2048x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []
  dot_S4096x64_S64x4096_S4096x4096_1_0_0_1_n_n_wf : DotDims.WF S4096x64 S64x4096 S4096x4096 [1] [0] [0] [1] [] []

variable [Facts₀]

def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  The two results as functions of the four argument arrays, over the extended reals.

  Result 0, the low-rank update applied to the activations: for batch `b`, position `s`, output feature `o`,
      out[b, s, o] = ∑ r, (∑ i, x[b, s, i] · A[r, i]) · B[o, r]
  — first the projection onto the `64` rank directions, then the expansion to the `4096` output features, in that
  grouping.

  Result 1, the row norms of the merged weight: for output feature `o`,
      norm[o] = √ (∑ i, (W[o, i] + ∑ r, B[o, r] · A[r, i])²).

  Both are written at explicit coordinates first (`loraAt`, `normAt`) and then as functions of an index of the
  result's shape; nothing here mentions a program.
-/
import Idealize.ShloMosaic.PureOps.Ideal
import Idealize.ShloMosaic.Lib.ValueIdx

noncomputable section

open scoped BigOperators

namespace Cert.Dora

open Idealize.ShloMosaic Idealize.ShloMosaic.ValueIdx

/-- The activations `x`, of shape [4, 2048, 4096]. -/
abbrev XArr := (⟨3, ![4, 2048, 4096]⟩ : Shape).Idx → EReal
/-- The frozen weight `W`, of shape [4096, 4096]. -/
abbrev WArr := (⟨2, ![4096, 4096]⟩ : Shape).Idx → EReal
/-- The down-projection `A`, of shape [64, 4096]. -/
abbrev AArr := (⟨2, ![64, 4096]⟩ : Shape).Idx → EReal
/-- The up-projection `B`, of shape [4096, 64]. -/
abbrev BArr := (⟨2, ![4096, 64]⟩ : Shape).Idx → EReal

/-- The activation row (b, s) projected onto rank direction `r`: `∑ i, x[b, s, i] · A[r, i]`. -/
def proj (x : XArr) (A : AArr) (b : Fin 4) (s : Fin 2048) (r : Fin 64) : EReal :=
  ∑ i : Fin 4096, x (ix3 b s i) * A (ix2 r i)

/-- Result 0 at (b, s, o): the projections of row (b, s) expanded along row `o` of `B`. -/
def loraAt (x : XArr) (A : AArr) (B : BArr) (b : Fin 4) (s : Fin 2048) (o : Fin 4096) : EReal :=
  ∑ r : Fin 64, proj x A b s r * B (ix2 o r)

/-- Result 0 as a function of an index of [4, 2048, 4096]. -/
def loraOut (x : XArr) (A : AArr) (B : BArr) : (⟨3, ![4, 2048, 4096]⟩ : Shape).Idx → EReal :=
  fun j => loraAt x A B (j 0) (j 1) (j 2)

/-- The merged weight at (o, i): the frozen entry plus the low-rank correction `∑ r, B[o, r] · A[r, i]`. -/
def mergedAt (W : WArr) (A : AArr) (B : BArr) (o i : Fin 4096) : EReal :=
  W (ix2 o i) + ∑ r : Fin 64, B (ix2 o r) * A (ix2 r i)

/-- Result 1 at `o`: the square root of the sum of squares of row `o` of the merged weight. -/
def normAt (W : WArr) (A : AArr) (B : BArr) (o : Fin 4096) : EReal :=
  Ideal.sqrt (∑ i : Fin 4096, mergedAt W A B o i * mergedAt W A B o i)

/-- Result 1 as a function of an index of [4096]. -/
def colNorm (W : WArr) (A : AArr) (B : BArr) : (⟨1, ![4096]⟩ : Shape).Idx → EReal :=
  fun j => normAt W A B (j 0)

theorem loraOut_ix3 (x : XArr) (A : AArr) (B : BArr) (b : Fin 4) (s : Fin 2048) (o : Fin 4096) :
    loraOut x A B (ix3 b s o) = loraAt x A B b s o := rfl

theorem colNorm_ix1 (W : WArr) (A : AArr) (B : BArr) (o : Fin 4096) :
    colNorm W A B (ix1 o) = normAt W A B o := rfl

end Cert.Dora

end
-- ==== Proof.RefValue.lean ====
/-
  The reference, read one operation at a time, is the specification.

  Result 0. The reference contracts the activations with `A` over the 4096 input features and the outcome with `B` over
  the 64 rank directions; read at (b, s, o) these are the nested sums of `Cert.Dora.loraAt`, operand indices and all.

  Result 1. The reference forms `B · A`, adds the frozen weight, squares, sums each row from the initial value `0`
  and takes the square root; read at `o` this is `Cert.Dora.normAt`: the initial value is the extended real `0`,
  and the host's square root is the extended-real square root.
-/
import proofs.«105120_j4243427688518_1_alg».proof.Proof.Gen.ReferenceIdeal.Read
import proofs.«105120_j4243427688518_1_alg».proof.Proof.Spec
import Idealize.ShloMosaic.PureOps.Ideal.Laws

noncomputable section

open scoped BigOperators

namespace Cert.Dora.RefValue

open Cert.ReferenceIdeal Cert.ReferenceIdeal.Read Idealize.ShloMosaic Idealize.ShloMosaic.ValueIdx Cert.Dora

/-- Where the first contraction reads the activations: row (b, s), input feature `k`. -/
theorem lhs_of_proj (b : Fin 4) (s : Fin 2048) (o : Fin 4096) (r : Fin 64) (k : Fin 4096) :
    lidx_main_v0 (lidx_main_v1 (ix3 b s o) r) k = ix3 b s k :=
  funext fun a => by match a with | ⟨0, _⟩ => rfl | ⟨1, _⟩ => rfl | ⟨2, _⟩ => rfl

/-- Where the first contraction reads `A`: rank direction `r`, input feature `k`. -/
theorem rhs_of_proj (b : Fin 4) (s : Fin 2048) (o : Fin 4096) (r : Fin 64) (k : Fin 4096) :
    ridx_main_v0 (lidx_main_v1 (ix3 b s o) r) k = ix2 r k :=
  funext fun a => by match a with | ⟨0, _⟩ => rfl | ⟨1, _⟩ => rfl

/-- Where the second contraction reads `B`: output feature `o`, rank direction `r`. -/
theorem rhs_of_expand (b : Fin 4) (s : Fin 2048) (o : Fin 4096) (r : Fin 64) :
    ridx_main_v1 (ix3 b s o) r = ix2 o r :=
  funext fun a => by match a with | ⟨0, _⟩ => rfl | ⟨1, _⟩ => rfl

/-- The reference's first result is the low-rank update of the activations. -/
theorem ref_lora (x : XArr) (A : AArr) (B : BArr) : val_main_v1 (F := Ideal) x A B = loraOut x A B := by
  funext j
  obtain ⟨b, s, o, rfl⟩ : ∃ (b : Fin 4) (s : Fin 2048) (o : Fin 4096), j = ix3 b s o := ⟨j 0, j 1, j 2, eq_ix3 j⟩
  rw [val_main_v1_apply, loraOut_ix3]
  unfold loraAt
  refine Finset.sum_congr rfl fun r _ => ?_
  rw [val_main_v0_apply, rhs_of_expand]
  unfold proj
  refine congrArg (· * B (ix2 o r)) (Finset.sum_congr rfl fun k _ => ?_)
  rw [lhs_of_proj, rhs_of_proj]

/-- Where the row sum reads the squared merged weight: row `o`, column `i`. -/
theorem idx_of_row (o i : Fin 4096) : idx_main_v5 (ix1 o) i = ix2 o i :=
  funext fun a => by match a with | ⟨0, _⟩ => rfl | ⟨1, _⟩ => rfl

/-- Where the correction reads `B` and `A` at entry (o, i) of the merged weight. -/
theorem lhs_of_corr (o i : Fin 4096) (r : Fin 64) : lidx_main_v2 (ix2 o i) r = ix2 o r :=
  funext fun a => by match a with | ⟨0, _⟩ => rfl | ⟨1, _⟩ => rfl
theorem rhs_of_corr (o i : Fin 4096) (r : Fin 64) : ridx_main_v2 (ix2 o i) r = ix2 r i :=
  funext fun a => by match a with | ⟨0, _⟩ => rfl | ⟨1, _⟩ => rfl

/-- The merged weight as the reference computes it, at (o, i). -/
theorem ref_merged (W : WArr) (A : AArr) (B : BArr) (o i : Fin 4096) :
    val_main_v3 (F := Ideal) W A B (ix2 o i) = mergedAt W A B o i := by
  rw [val_main_v3_apply, val_main_v2_apply]
  unfold mergedAt
  rw [Ideal.addf_def]
  refine congrArg (W (ix2 o i) + ·) (Finset.sum_congr rfl fun r _ => ?_)
  rw [lhs_of_corr, rhs_of_corr]

/-- The reference's second result is the row norm of the merged weight. -/
theorem ref_norm (W : WArr) (A : AArr) (B : BArr) : val_main_v6 (F := Ideal) W A B = colNorm W A B := by
  funext j
  obtain ⟨o, rfl⟩ : ∃ o : Fin 4096, j = ix1 o := ⟨j 0, eq_ix1 j⟩
  rw [val_main_v6_apply, val_main_v5_apply, val_main_cst_apply, Ideal.hostUnary_sqrt_def, Ideal.ofBits_def,
    Ideal.ofBits_zero_f32, zero_add, colNorm_ix1]
  unfold normAt
  refine congrArg Ideal.sqrt (Finset.sum_congr rfl fun i _ => ?_)
  rw [val_main_v4_apply, idx_of_row, ref_merged, Ideal.mulf_def]

end Cert.Dora.RefValue

end
-- ==== Proof.LoraBody.lean ====
/-
  What the low-rank kernel's body computes from its three blocks, entry by entry.

  The body holds a block of 256 activation rows `x0` (stored with a leading unit axis), all of `A` and all of `B`.
  It drops the unit axis, multiplies the rows by `Aᵀ` into a zero accumulator (contracting the 4096 input features),
  multiplies the outcome by `Bᵀ` into a zero accumulator (contracting the 64 rank directions) and restores the unit
  axis. Over the extended reals a change of float format is the identity and a product into a zero accumulator is the
  plain sum of products, so entry (z, s, o) of what it stores is
      ∑ r, (∑ i, x0[z, s, i] · A[r, i]) · B[o, r].
-/
import proofs.«105120_j4243427688518_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Dora.LoraBody

open Cert.KernelIdeal Cert.KernelIdeal.Gen Idealize.ShloMosaic Idealize.ShloMosaic.ValueIdx

/-! ## The projection: rows × Aᵀ, contracting the input features -/

theorem lhs_proj_0 (i : S256x64.Idx) (q : dot_S256x4096_S64x4096_S256x64_1_1_0_0_n_n.contr.Idx) :
    (dot_S256x4096_S64x4096_S256x64_1_1_0_0_n_n.lhsIdx i q 0).val = (i 0).val := by
  unfold DotDims.lhsIdx
  rw [dif_neg (show ¬(0 : Fin S256x4096.rank) ∈ dot_S256x4096_S64x4096_S256x64_1_1_0_0_n_n.lhsBatch by decide), dif_pos (show (0 : Fin S256x4096.rank) ∈ dot_S256x4096_S64x4096_S256x64_1_1_0_0_n_n.lhsNonContracting by decide)]
  rfl
theorem lhs_proj_1 (i : S256x64.Idx) (q : dot_S256x4096_S64x4096_S256x64_1_1_0_0_n_n.contr.Idx) :
    (dot_S256x4096_S64x4096_S256x64_1_1_0_0_n_n.lhsIdx i q 1).val = (q ⟨0, by decide⟩).val :=
  dot_S256x4096_S64x4096_S256x64_1_1_0_0_n_n.lhsIdx_val_of_single rfl i q
theorem rhs_proj_0 (i : S256x64.Idx) (q : dot_S256x4096_S64x4096_S256x64_1_1_0_0_n_n.contr.Idx) :
    (dot_S256x4096_S64x4096_S256x64_1_1_0_0_n_n.rhsIdx i q 0).val = (i 1).val := by
  unfold DotDims.rhsIdx
  rw [dif_neg (show ¬(0 : Fin S64x4096.rank) ∈ dot_S256x4096_S64x4096_S256x64_1_1_0_0_n_n.rhsBatch by decide), dif_pos (show (0 : Fin S64x4096.rank) ∈ dot_S256x4096_S64x4096_S256x64_1_1_0_0_n_n.rhsNonContracting by decide)]
  rfl
theorem rhs_proj_1 (i : S256x64.Idx) (q : dot_S256x4096_S64x4096_S256x64_1_1_0_0_n_n.contr.Idx) :
    (dot_S256x4096_S64x4096_S256x64_1_1_0_0_n_n.rhsIdx i q 1).val = (q ⟨0, by decide⟩).val :=
  dot_S256x4096_S64x4096_S256x64_1_1_0_0_n_n.rhsIdx_val_of_single rfl i q

/-- Entry (s, k) of rows × Aᵀ into a zero accumulator: the sum over the input features. -/
theorem proj_apply (l : FVec Ideal S256x4096 .bf16) (r : FVec Ideal S64x4096 .bf16) (s : Fin 256) (k : Fin 64) :
    matmul dot_S256x4096_S64x4096_S256x64_1_1_0_0_n_n none l r (constant (F := Ideal) S256x64 .f32 0x00000000#32) (ix2 s k)
      = ∑ i : Fin 4096, l (ix2 s i) * r (ix2 k i) := by
  show FloatOps.matmul dot_S256x4096_S64x4096_S256x64_1_1_0_0_n_n none l r (constant (F := Ideal) S256x64 .f32 0x00000000#32) (ix2 s k) = _
  rw [Ideal.matmul_constant_zero_apply, ← Equiv.sum_comp (contrEquiv1 dot_S256x4096_S64x4096_S256x64_1_1_0_0_n_n 4096 rfl rfl).symm]
  refine Finset.sum_congr rfl fun i _ => ?_
  have hk := contrEquiv1_symm_val dot_S256x4096_S64x4096_S256x64_1_1_0_0_n_n 4096 rfl rfl i
  have el : dot_S256x4096_S64x4096_S256x64_1_1_0_0_n_n.lhsIdx (ix2 s k) ((contrEquiv1 dot_S256x4096_S64x4096_S256x64_1_1_0_0_n_n 4096 rfl rfl).symm i) = ix2 s i := funext fun a => Fin.ext (by
    match a with
    | ⟨0, _⟩ => exact lhs_proj_0 _ _
    | ⟨1, _⟩ => exact (lhs_proj_1 _ _).trans hk)
  have er : dot_S256x4096_S64x4096_S256x64_1_1_0_0_n_n.rhsIdx (ix2 s k) ((contrEquiv1 dot_S256x4096_S64x4096_S256x64_1_1_0_0_n_n 4096 rfl rfl).symm i) = ix2 k i := funext fun a => Fin.ext (by
    match a with
    | ⟨0, _⟩ => exact rhs_proj_0 _ _
    | ⟨1, _⟩ => exact (rhs_proj_1 _ _).trans hk)
  rw [el, er]

/-! ## The expansion: projections × Bᵀ, contracting the rank directions -/

theorem lhs_expand_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhs_expand_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem rhs_expand_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem rhs_expand_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- Entry (s, o) of projections × Bᵀ into a zero accumulator: the sum over the rank directions. -/
theorem expand_apply (l : FVec Ideal S256x64 .bf16) (r : FVec Ideal S4096x64 .bf16) (s : Fin 256) (o : Fin 4096) :
    matmul dot_S256x64_S4096x64_S256x4096_1_1_0_0_n_n none l r (constant (F := Ideal) S256x4096 .f32 0x00000000#32) (ix2 s o)
      = ∑ k : Fin 64, l (ix2 s k) * r (ix2 o k) := by
  show FloatOps.matmul dot_S256x64_S4096x64_S256x4096_1_1_0_0_n_n none l r (constant (F := Ideal) S256x4096 .f32 0x00000000#32) (ix2 s o) = _
  rw [Ideal.matmul_constant_zero_apply, ← Equiv.sum_comp (contrEquiv1 dot_S256x64_S4096x64_S256x4096_1_1_0_0_n_n 64 rfl rfl).symm]
  refine Finset.sum_congr rfl fun k _ => ?_
  have hk := contrEquiv1_symm_val dot_S256x64_S4096x64_S256x4096_1_1_0_0_n_n 64 rfl rfl k
  have el : dot_S256x64_S4096x64_S256x4096_1_1_0_0_n_n.lhsIdx (ix2 s o) ((contrEquiv1 dot_S256x64_S4096x64_S256x4096_1_1_0_0_n_n 64 rfl rfl).symm k) = ix2 s k := funext fun a => Fin.ext (by
    match a with
    | ⟨0, _⟩ => exact lhs_expand_0 _ _
    | ⟨1, _⟩ => exact (lhs_expand_1 _ _).trans hk)
  have er : dot_S256x64_S4096x64_S256x4096_1_1_0_0_n_n.rhsIdx (ix2 s o) ((contrEquiv1 dot_S256x64_S4096x64_S256x4096_1_1_0_0_n_n 64 rfl rfl).symm k) = ix2 o k := funext fun a => Fin.ext (by
    match a with
    | ⟨0, _⟩ => exact rhs_expand_0 _ _
    | ⟨1, _⟩ => exact (rhs_expand_1 _ _).trans hk)
  rw [el, er]

/-! ## The body's stored value, entry by entry -/

/-- Entry (z, s, o) of the block the body stores, from its three loaded blocks. -/
def blockAt (x0 : Vec Ideal S1x256x4096 .f32) (a : Vec Ideal S64x4096 .f32) (b : Vec Ideal S4096x64 .f32)
    (z : Fin 1) (s : Fin 256) (o : Fin 4096) : EReal :=
  ∑ r : Fin 64, (∑ i : Fin 4096, x0 (ix3 z s i) * a (ix2 r i)) * b (ix2 o r)

/-- Dropping the leading unit axis reads row `s`, column `i` of the only slab. -/
theorem rows_apply (x0 : Vec Ideal S1x256x4096 .f32) (z : Fin 1) (s : Fin 256) (i : Fin 4096) :
    shapeCast S256x4096 x0 shapeCasts_S1x256x4096_S256x4096 (ix2 s i) = x0 (ix3 z s i) := by
  refine (shapeCast_dropUnit_apply ![256, 4096] x0 _ (ix2 s i)).trans (congrArg x0 ?_)
  funext a
  match a with
  | ⟨0, _⟩ => exact Fin.ext (by show 0 = z.val; have := z.isLt; omega)
  | ⟨1, _⟩ => rfl
  | ⟨2, _⟩ => rfl

/-- Restoring the leading unit axis reads the matrix at the two trailing coordinates. -/
theorem slab_apply (v : FVec Ideal S256x4096 .f32) (z : Fin 1) (s : Fin 256) (o : Fin 4096) :
    shapeCast S1x256x4096 v shapeCasts_S256x4096_S1x256x4096 (ix3 z s o) = v (ix2 s o) := by
  refine (shapeCast_addUnit_apply ![256, 4096] v _ (ix3 z s o)).trans (congrArg v ?_)
  funext a
  match a with
  | ⟨0, _⟩ => rfl
  | ⟨1, _⟩ => rfl

/-- The stored value at (z, s, o) is the nested sum. -/
theorem pay_apply (x0 : Vec Ideal S1x256x4096 .f32) (a : Vec Ideal S64x4096 .f32) (b : Vec Ideal S4096x64 .f32)
    (z : Fin 1) (s : Fin 256) (o : Fin 4096) :
    k0_pay1 (F := Ideal) x0 a b (ix3 z s o) = blockAt x0 a b z s o := by
  unfold k0_pay1
  rw [slab_apply, expand_apply]
  unfold blockAt
  refine Finset.sum_congr rfl fun r _ => ?_
  rw [truncf_apply, truncf_apply, proj_apply]
  refine congrArg (· * b (ix2 o r)) (Finset.sum_congr rfl fun i _ => ?_)
  rw [truncf_apply, truncf_apply, rows_apply x0 z s i]

end Cert.Dora.LoraBody

end
-- ==== Proof.LoraBlocks.lean ====
/-
  From the low-rank kernel's blocks to its whole result array.

  The grid has 4 × 8 points; point (b, j) reads rows 256·j … 256·j + 255 of batch `b` of the activations together with
  all of `A` and all of `B`, and writes back the same rows of batch `b` of the result. Entry (z, s, o) of the block the
  body stores is the nested sum over that block's rows (`LoraBody.pay_apply`), and row `s` of the block is row
  256·j + s of the array, so what each point writes back is its block of ONE function of the whole arrays,
  `Cert.Dora.loraOut`. The 32 blocks tile the result (row `q` of batch `b` lies in the block of point (b, q / 256)),
  so after the region the result array is `loraOut` of the arrays the region found.
-/
import proofs.«105120_j4243427688518_1_alg».proof.Proof.Gen.KernelIdeal.Frame
import proofs.«105120_j4243427688518_1_alg».proof.Proof.Spec
import proofs.«105120_j4243427688518_1_alg».proof.Proof.LoraBody
import Idealize.ShloMosaic.Lib.Pipeline.Value
import Idealize.ShloMosaic.Lib.ValueIdx

set_option maxRecDepth 16384

noncomputable section

open scoped BigOperators

namespace Cert.Dora.LoraBlocks

open Cert.KernelIdeal Cert.KernelIdeal.Gen Idealize.ShloMosaic Idealize.ShloMosaic.TcCoe Idealize.ShloMosaic.ValueIdx
open Idealize.SL.Sem Cert.Dora
open Idealize.ShloMosaic.Pipeline (Dat Cfg Window)

-- the TensorCore's buffer contents when the region is entered
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index maps over the grid: the activations' block moves with the result's block on the batch and row
    axes, neither moves on the feature axis, `A` and `B` are held whole, and the result's block indices stay inside
    the 4 batches and the 8 row tiles. -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 7 :=
  (by decide +kernel : ∀ t : Fin grid0.N, _)

/-- Every (batch, row tile) is some point's block. -/
theorem index_onto : ∀ (b : Fin 4) (j : Fin 8), ∃ t : Fin cfg0.N, win0_3.index t = ![b.val, j.val, 0] :=
  (by decide +kernel : ∀ (b : Fin 4) (j : Fin 8), ∃ t : Fin grid0.N, win0_3.index t = ![b.val, j.val, 0])

/-! ## Where a block's entry sits in its array -/

/-- Entry (z, s, i) of point `t`'s block of the activations is entry (b, 256·j + s, i) of the array. -/
theorem emb_x (t : Fin cfg0.N) (z : Fin 1) (s : Fin 256) (i : Fin 4096) (b : Fin 4) (q : Fin 2048)
    (hb : b.val = win0_3.index t (0 : Fin 3)) (hq : q.val = win0_3.index t (1 : Fin 3) * 256 + s.val) :
    ((cfg0.win 0).blk t).view.emb (ix3 z s i) = ix3 b q i := by
  obtain ⟨e0, e1, e2, -⟩ := index_facts t
  funext a; apply Fin.ext
  match a with
  | ⟨0, _⟩ => show win0_0.index t (0 : Fin 3) * 1 + 1 * z.val = b.val; have := z.isLt; omega
  | ⟨1, _⟩ => show win0_0.index t (1 : Fin 3) * 256 + 1 * s.val = q.val; omega
  | ⟨2, _⟩ => show win0_0.index t (2 : Fin 3) * 4096 + 1 * i.val = i.val; omega

/-- `A` is held whole: entry (r, i) of its block is entry (r, i) of the array. -/
theorem emb_a (t : Fin cfg0.N) (r : Fin 64) (i : Fin 4096) :
    ((cfg0.win 1).blk t).view.emb (ix2 r i) = ix2 r i := by
  obtain ⟨-, -, -, -, e4, e5, -⟩ := index_facts t
  funext a; apply Fin.ext
  match a with
  | ⟨0, _⟩ => show win0_1.index t (0 : Fin 2) * 64 + 1 * r.val = r.val; omega
  | ⟨1, _⟩ => show win0_1.index t (1 : Fin 2) * 4096 + 1 * i.val = i.val; omega

/-- `B` is held whole: entry (o, r) of its block is entry (o, r) of the array. -/
theorem emb_b (t : Fin cfg0.N) (o : Fin 4096) (r : Fin 64) :
    ((cfg0.win 2).blk t).view.emb (ix2 o r) = ix2 o r := by
  obtain ⟨-, -, -, -, -, -, e6, e7, -⟩ := index_facts t
  funext a; apply Fin.ext
  match a with
  | ⟨0, _⟩ => show win0_2.index t (0 : Fin 2) * 4096 + 1 * o.val = o.val; omega
  | ⟨1, _⟩ => show win0_2.index t (1 : Fin 2) * 64 + 1 * r.val = r.val; omega

/-- Entry (z, s, o) of point `t`'s block of the result is entry (b, 256·j + s, o) of the array. -/
theorem emb_out (t : Fin cfg0.N) (z : Fin 1) (s : Fin 256) (o : Fin 4096) (b : Fin 4) (q : Fin 2048)
    (hb : b.val = win0_3.index t (0 : Fin 3)) (hq : q.val = win0_3.index t (1 : Fin 3) * 256 + s.val) :
    ((cfg0.win 3).blk t).view.emb (ix3 z s o) = ix3 b q o := by
  obtain ⟨-, -, -, e3, -⟩ := index_facts t
  funext a; apply Fin.ext
  match a with
  | ⟨0, _⟩ => show win0_3.index t (0 : Fin 3) * 1 + 1 * z.val = b.val; have := z.isLt; omega
  | ⟨1, _⟩ => show win0_3.index t (1 : Fin 3) * 256 + 1 * s.val = q.val; omega
  | ⟨2, _⟩ => show win0_3.index t (2 : Fin 3) * 4096 + 1 * o.val = o.val; omega

/-! ## What a point writes back -/

/-- The three blocks the body loads at point `t`, at their literal types. -/
abbrev xblk (c : Dev nD) (t : Fin cfg0.N) : Vec Ideal S1x256x4096 .f32 := iblk0 V c 0 t
abbrev ablk (c : Dev nD) (t : Fin cfg0.N) : Vec Ideal S64x4096 .f32 := iblk0 V c 1 t
abbrev bblk (c : Dev nD) (t : Fin cfg0.N) : Vec Ideal S4096x64 .f32 := iblk0 V c 2 t

/-- The arrays as the region finds them, at their literal types. -/
abbrev xarr (c : Dev nD) : XArr := V c main_arg0
abbrev aarr (c : Dev nD) : AArr := V c main_arg2
abbrev barr (c : Dev nD) : BArr := V c main_arg3

theorem xblk_apply (c : Dev nD) (t : Fin cfg0.N) (y : S1x256x4096.Idx) :
    xblk V c t y = xarr V c (((cfg0.win 0).blk t).view.emb y) := rfl
theorem ablk_apply (c : Dev nD) (t : Fin cfg0.N) (y : S64x4096.Idx) :
    ablk V c t y = aarr V c (((cfg0.win 1).blk t).view.emb y) := rfl
theorem bblk_apply (c : Dev nD) (t : Fin cfg0.N) (y : S4096x64.Idx) :
    bblk V c t y = barr V c (((cfg0.win 2).blk t).view.emb y) := rfl

/-- What point `t` writes back is its block of `loraOut` of the arrays the region found. -/
theorem flushed_eq (c : Dev nD) (t : Fin cfg0.N) :
    (dat0 V c).flushed 3 t = ((cfg0.win 3).blk t).view.read (Elt Ideal) (loraOut (xarr V c) (aarr V c) (barr V c)) := by
  show (cfg0.win 3).cut (grid0.coords t) ((dat0 V c).after 3 t) = _
  rw [after0_3]
  unfold out0_3
  rw [View.canon_unit_zero zeros3]
  simp only [View.ld_unit_zero (S := S1x256x4096) zeros3, View.ld_unit_zero (S := S64x4096) zeros2,
    View.ld_unit_zero (S := S4096x64) zeros2]
  funext y
  obtain ⟨z, s, o, rfl⟩ : ∃ (z : Fin 1) (s : Fin 256) (o : Fin 4096), y = ix3 z s o := ⟨y 0, y 1, y 2, eq_ix3 y⟩
  obtain ⟨-, -, -, -, -, -, -, -, l0, l1⟩ := index_facts t
  have hs := s.isLt
  -- the batch and the row of the array this entry belongs to
  let b : Fin 4 := ⟨win0_3.index t (0 : Fin 3), by omega⟩
  let q : Fin 2048 := ⟨win0_3.index t (1 : Fin 3) * 256 + s.val, by omega⟩
  show k0_pay1 (F := Ideal) (xblk V c t) (ablk V c t) (bblk V c t) (ix3 z s o)
    = loraOut (xarr V c) (aarr V c) (barr V c) (((cfg0.win 3).blk t).view.emb (ix3 z s o))
  rw [emb_out t z s o b q rfl rfl, loraOut_ix3]
  refine (LoraBody.pay_apply (xblk V c t) (ablk V c t) (bblk V c t) z s o).trans ?_
  unfold LoraBody.blockAt loraAt proj
  refine Finset.sum_congr rfl fun r _ => ?_
  rw [bblk_apply, emb_b]
  refine congrArg (· * barr V c (ix2 o r)) (Finset.sum_congr rfl fun i _ => ?_)
  rw [xblk_apply, ablk_apply, emb_x t z s i b q rfl rfl, emb_a]

/-! ## The blocks tile the result -/

/-- An index of the result is in point `t`'s block iff each coordinate is in the block's range on its axis. -/
theorem mem_blk (t : Fin cfg0.N) (i : S4x2048x4096.Idx) :
    i ∈ ((cfg0.win 3).blk t).view.set ↔ ∀ a : Fin 3, win0_3.index t a * S1x256x4096.size a ≤ (i a).val ∧ (i a).val < win0_3.index t a * S1x256x4096.size a + S1x256x4096.size a := by
  show i ∈ ((View.whole main_v0).slice (win0_3.rect t)).set ↔ _
  rw [View.set_slice_whole, Rect.mem_set_unit]
  exact Iff.rfl

/-- Every index of the result lies in the block of the point of its batch and its row tile. -/
theorem cover (i : S4x2048x4096.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 4096 := (i 2).isLt
  obtain ⟨t, ht⟩ := index_onto ⟨(i 0).val, h0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- After the region the result array is `loraOut` of the arrays the region found. -/
theorem final (c : Dev nD) :
    (dat0 V c).arrAt 3 cfg0.N = loraOut (xarr V c) (aarr V c) (barr V c) :=
  (dat0 V c).arrAt_eq_of_cover 3 (loraOut (xarr V c) (aarr V c) (barr V c)) (fun t _ => flushed_eq V c t) cover

end Cert.Dora.LoraBlocks

end
-- ==== Proof.NormBody.lean ====
/-
  What the norm kernel's body computes from its three blocks, entry by entry.

  The body holds 256 rows of the frozen weight `w`, the same 256 rows of `B`, and all of `A`. It multiplies the rows
  of `B` by `A` into a zero accumulator (contracting the 64 rank directions), adds the frozen rows, squares entry by
  entry, sums each row over its 4096 columns and takes the square root. Over the extended reals a change of float
  format is the identity, a product into a zero accumulator is the plain sum of products and a lane sum from the zero
  accumulator is the plain sum, so entry `p` of what it stores is
      √ (∑ i, (w[p, i] + ∑ r, B[p, r] · A[r, i])²).
-/
import proofs.«105120_j4243427688518_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Dora.NormBody

open Cert.KernelIdeal Cert.KernelIdeal.Gen Idealize.ShloMosaic Idealize.ShloMosaic.ValueIdx

/-! ## The correction: rows of B × A, contracting the rank directions -/

theorem lhs_corr_0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem lhs_corr_1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
theorem rhs_corr_0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
theorem rhs_corr_1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- Entry (p, i) of (rows of B) × A into a zero accumulator: the sum over the rank directions. -/
theorem corr_apply (l : FVec Ideal S256x64 .bf16) (r : FVec Ideal S64x4096 .bf16) (p : Fin 256) (i : Fin 4096) :
    matmul dot_S256x64_S64x4096_S256x4096_1_0_0_1_n_n none l r (constant (F := Ideal) S256x4096 .f32 0x00000000#32) (ix2 p i)
      = ∑ k : Fin 64, l (ix2 p k) * r (ix2 k i) := by
  show FloatOps.matmul dot_S256x64_S64x4096_S256x4096_1_0_0_1_n_n none l r (constant (F := Ideal) S256x4096 .f32 0x00000000#32) (ix2 p i) = _
  rw [Ideal.matmul_constant_zero_apply, ← Equiv.sum_comp (contrEquiv1 dot_S256x64_S64x4096_S256x4096_1_0_0_1_n_n 64 rfl rfl).symm]
  refine Finset.sum_congr rfl fun k _ => ?_
  have hk := contrEquiv1_symm_val dot_S256x64_S64x4096_S256x4096_1_0_0_1_n_n 64 rfl rfl k
  have el : dot_S256x64_S64x4096_S256x4096_1_0_0_1_n_n.lhsIdx (ix2 p i) ((contrEquiv1 dot_S256x64_S64x4096_S256x4096_1_0_0_1_n_n 64 rfl rfl).symm k) = ix2 p k := funext fun a => Fin.ext (by
    match a with
    | ⟨0, _⟩ => exact lhs_corr_0 _ _
    | ⟨1, _⟩ => exact (lhs_corr_1 _ _).trans hk)
  have er : dot_S256x64_S64x4096_S256x4096_1_0_0_1_n_n.rhsIdx (ix2 p i) ((contrEquiv1 dot_S256x64_S64x4096_S256x4096_1_0_0_1_n_n 64 rfl rfl).symm k) = ix2 k i := funext fun a => Fin.ext (by
    match a with
    | ⟨0, _⟩ => exact (rhs_corr_0 _ _).trans hk
    | ⟨1, _⟩ => exact rhs_corr_1 _ _)
  rw [el, er]

/-! ## The row sum -/

/-- The lane sum of a [256, 4096] vector from the zero accumulator, at row `p`: the sum over the 4096 columns. -/
theorem rowsum_apply (v : FVec Ideal S256x4096 .f32) (hφ : FKind.Formats .f32)
    (hacc : (0x00000000#32 : BitVec 32) = 0x00000000#32) (p : Fin 256) :
    multiReduction (F := Ideal) .add [1] S256 v 0x00000000#32 reduces_S256x4096_S256 hφ hacc (ix1 p)
      = ∑ i : Fin 4096, v (ix2 p i) := by
  refine (Ideal.multiReduction_add_single v 0x00000000#32 reduces_S256x4096_S256 hφ hacc (ix1 p)).trans ?_
  refine Finset.sum_congr rfl fun i _ => congrArg v (funext fun a => Fin.ext (by
    match a with
    | ⟨0, _⟩ => rfl
    | ⟨1, _⟩ => rfl))

/-! ## The body's stored value, entry by entry -/

/-- Entry (p, i) of the merged block: the frozen entry plus the low-rank correction. -/
def mergedBlockAt (w : Vec Ideal S256x4096 .f32) (b : Vec Ideal S256x64 .f32) (a : Vec Ideal S64x4096 .f32)
    (p : Fin 256) (i : Fin 4096) : EReal :=
  w (ix2 p i) + ∑ r : Fin 64, b (ix2 p r) * a (ix2 r i)

/-- Entry `p` of the block the body stores, from its three loaded blocks. -/
def blockAt (w : Vec Ideal S256x4096 .f32) (b : Vec Ideal S256x64 .f32) (a : Vec Ideal S64x4096 .f32)
    (p : Fin 256) : EReal :=
  Ideal.sqrt (∑ i : Fin 4096, mergedBlockAt w b a p i * mergedBlockAt w b a p i)

/-- The stored value at `p` is the square root of the row's sum of squares. -/
theorem pay_apply (w : Vec Ideal S256x4096 .f32) (b : Vec Ideal S256x64 .f32) (a : Vec Ideal S64x4096 .f32)
    (p : Fin 256) :
    k1_pay1 (F := Ideal) w b a (ix1 p) = blockAt w b a p := by
  unfold k1_pay1
  show FloatOps.sqrt (multiReduction (F := Ideal) .add [1] S256 _ 0x00000000#32 reduces_S256x4096_S256 (.inl rfl) rfl (ix1 p)) = _
  rw [Ideal.sqrt_def]
  unfold blockAt
  refine congrArg Ideal.sqrt ((rowsum_apply _ (.inl rfl) rfl p).trans (Finset.sum_congr rfl fun i _ => ?_))
  rw [mulf_apply, addf_apply, corr_apply]
  rfl

end Cert.Dora.NormBody

end
-- ==== Proof.NormBlocks.lean ====
/-
  From the norm kernel's blocks to its whole result array.

  The grid has 16 points; point `j` reads rows 256·j … 256·j + 255 of the frozen weight and of `B` together with all of
  `A`, and writes back entries 256·j … 256·j + 255 of the result. Entry `p` of the block the body stores is the norm of
  row `p` of the merged block (`NormBody.pay_apply`), and row `p` of a block is row 256·j + p of its array, so what each
  point writes back is its block of ONE function of the whole arrays, `Cert.Dora.colNorm`. The 16 blocks tile the
  result (entry `q` lies in the block of point q / 256), so after the region the result array is `colNorm` of the
  arrays the region found.
-/
import proofs.«105120_j4243427688518_1_alg».proof.Proof.Gen.KernelIdeal.Frame
import proofs.«105120_j4243427688518_1_alg».proof.Proof.Spec
import proofs.«105120_j4243427688518_1_alg».proof.Proof.NormBody
import Idealize.ShloMosaic.Lib.Pipeline.Value
import Idealize.ShloMosaic.Lib.ValueIdx

set_option maxRecDepth 16384

noncomputable section

open scoped BigOperators

namespace Cert.Dora.NormBlocks

open Cert.KernelIdeal Cert.KernelIdeal.Gen Idealize.ShloMosaic Idealize.ShloMosaic.TcCoe Idealize.ShloMosaic.ValueIdx
open Idealize.SL.Sem Cert.Dora
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block index maps over the grid: the frozen weight's and `B`'s row tiles move with the result's tile and do not
    move on their second axis, `A` is held whole, and the result's tile index stays inside the 16 tiles. -/
theorem index_facts : ∀ t : Fin cfg1.N,
    win1_0.index t (0 : Fin 2) = win1_3.index t (0 : Fin 1)
    ∧ win1_0.index t (1 : Fin 2) = 0
    ∧ win1_1.index t (0 : Fin 2) = win1_3.index t (0 : Fin 1)
    ∧ win1_1.index t (1 : Fin 2) = 0
    ∧ win1_2.index t (0 : Fin 2) = 0 ∧ win1_2.index t (1 : Fin 2) = 0
    ∧ win1_3.index t (0 : Fin 1) ≤ 15 :=
  (by decide +kernel : ∀ t : Fin grid1.N, _)

/-- Every tile is some point's block. -/
theorem index_onto : ∀ j : Fin 16, ∃ t : Fin cfg1.N, win1_3.index t = ![j.val] :=
  (by decide +kernel : ∀ j : Fin 16, ∃ t : Fin grid1.N, win1_3.index t = ![j.val])

/-! ## Where a block's entry sits in its array -/

/-- Entry (p, i) of point `t`'s block of the frozen weight is entry (256·j + p, i) of the array. -/
theorem emb_w (t : Fin cfg1.N) (p : Fin 256) (i : Fin 4096) (q : Fin 4096)
    (hq : q.val = win1_3.index t (0 : Fin 1) * 256 + p.val) :
    ((cfg1.win 0).blk t).view.emb (ix2 p i) = ix2 q i := by
  obtain ⟨e0, e1, -⟩ := index_facts t
  funext a; apply Fin.ext
  match a with
  | ⟨0, _⟩ => show win1_0.index t (0 : Fin 2) * 256 + 1 * p.val = q.val; omega
  | ⟨1, _⟩ => show win1_0.index t (1 : Fin 2) * 4096 + 1 * i.val = i.val; omega

/-- Entry (p, r) of point `t`'s block of `B` is entry (256·j + p, r) of the array. -/
theorem emb_b (t : Fin cfg1.N) (p : Fin 256) (r : Fin 64) (q : Fin 4096)
    (hq : q.val = win1_3.index t (0 : Fin 1) * 256 + p.val) :
    ((cfg1.win 1).blk t).view.emb (ix2 p r) = ix2 q r := by
  obtain ⟨-, -, e2, e3, -⟩ := index_facts t
  funext a; apply Fin.ext
  match a with
  | ⟨0, _⟩ => show win1_1.index t (0 : Fin 2) * 256 + 1 * p.val = q.val; omega
  | ⟨1, _⟩ => show win1_1.index t (1 : Fin 2) * 64 + 1 * r.val = r.val; omega

/-- `A` is held whole: entry (r, i) of its block is entry (r, i) of the array. -/
theorem emb_a (t : Fin cfg1.N) (r : Fin 64) (i : Fin 4096) :
    ((cfg1.win 2).blk t).view.emb (ix2 r i) = ix2 r i := by
  obtain ⟨-, -, -, -, e4, e5, -⟩ := index_facts t
  funext a; apply Fin.ext
  match a with
  | ⟨0, _⟩ => show win1_2.index t (0 : Fin 2) * 64 + 1 * r.val = r.val; omega
  | ⟨1, _⟩ => show win1_2.index t (1 : Fin 2) * 4096 + 1 * i.val = i.val; omega

/-- Entry `p` of point `t`'s block of the result is entry 256·j + p of the array. -/
theorem emb_out (t : Fin cfg1.N) (p : Fin 256) (q : Fin 4096)
    (hq : q.val = win1_3.index t (0 : Fin 1) * 256 + p.val) :
    ((cfg1.win 3).blk t).view.emb (ix1 p) = ix1 q := by
  funext a; apply Fin.ext
  match a with
  | ⟨0, _⟩ => show win1_3.index t (0 : Fin 1) * 256 + 1 * p.val = q.val; omega

/-! ## What a point writes back -/

/-- The three blocks the body loads at point `t`, at their literal types. -/
abbrev wblk (c : Dev nD) (t : Fin cfg1.N) : Vec Ideal S256x4096 .f32 := iblk1 V c 0 t
abbrev bblk (c : Dev nD) (t : Fin cfg1.N) : Vec Ideal S256x64 .f32 := iblk1 V c 1 t
abbrev ablk (c : Dev nD) (t : Fin cfg1.N) : Vec Ideal S64x4096 .f32 := iblk1 V c 2 t

/-- The arrays as the region finds them, at their literal types. -/
abbrev warr (c : Dev nD) : WArr := V c main_arg1
abbrev aarr (c : Dev nD) : AArr := V c main_arg2
abbrev barr (c : Dev nD) : BArr := V c main_arg3

theorem wblk_apply (c : Dev nD) (t : Fin cfg1.N) (y : S256x4096.Idx) :
    wblk V c t y = warr V c (((cfg1.win 0).blk t).view.emb y) := rfl
theorem bblk_apply (c : Dev nD) (t : Fin cfg1.N) (y : S256x64.Idx) :
    bblk V c t y = barr V c (((cfg1.win 1).blk t).view.emb y) := rfl
theorem ablk_apply (c : Dev nD) (t : Fin cfg1.N) (y : S64x4096.Idx) :
    ablk V c t y = aarr V c (((cfg1.win 2).blk t).view.emb y) := rfl

/-- Entry (p, i) of the merged block at point `t` is entry (256·j + p, i) of the merged weight. -/
theorem merged_eq (c : Dev nD) (t : Fin cfg1.N) (p : Fin 256) (i : Fin 4096) (q : Fin 4096)
    (hq : q.val = win1_3.index t (0 : Fin 1) * 256 + p.val) :
    NormBody.mergedBlockAt (wblk V c t) (bblk V c t) (ablk V c t) p i = mergedAt (warr V c) (aarr V c) (barr V c) q i := by
  unfold NormBody.mergedBlockAt mergedAt
  rw [wblk_apply, emb_w t p i q hq]
  refine congrArg (warr V c (ix2 q i) + ·) (Finset.sum_congr rfl fun r _ => ?_)
  rw [bblk_apply, ablk_apply, emb_b t p r q hq, emb_a]

/-- What point `t` writes back is its block of `colNorm` of the arrays the region found. -/
theorem flushed_eq (c : Dev nD) (t : Fin cfg1.N) :
    (dat1 V c).flushed 3 t = ((cfg1.win 3).blk t).view.read (Elt Ideal) (colNorm (warr V c) (aarr V c) (barr V c)) := by
  show (cfg1.win 3).cut (grid1.coords t) ((dat1 V c).after 3 t) = _
  rw [after1_3]
  unfold out1_3
  rw [View.canon_unit_zero zeros1]
  simp only [View.ld_unit_zero (S := S256x4096) zeros2, View.ld_unit_zero (S := S256x64) zeros2,
    View.ld_unit_zero (S := S64x4096) zeros2]
  funext y
  obtain ⟨p, rfl⟩ : ∃ p : Fin 256, y = ix1 p := ⟨y 0, eq_ix1 y⟩
  obtain ⟨-, -, -, -, -, -, l0⟩ := index_facts t
  have hp := p.isLt
  -- the entry of the array this block entry belongs to
  let q : Fin 4096 := ⟨win1_3.index t (0 : Fin 1) * 256 + p.val, by omega⟩
  show k1_pay1 (F := Ideal) (wblk V c t) (bblk V c t) (ablk V c t) (ix1 p)
    = colNorm (warr V c) (aarr V c) (barr V c) (((cfg1.win 3).blk t).view.emb (ix1 p))
  rw [emb_out t p q rfl, colNorm_ix1]
  refine (NormBody.pay_apply (wblk V c t) (bblk V c t) (ablk V c t) p).trans ?_
  unfold NormBody.blockAt normAt
  refine congrArg Ideal.sqrt (Finset.sum_congr rfl fun i _ => ?_)
  rw [merged_eq V c t p i q rfl]

/-! ## The blocks tile the result -/

/-- An index of the result is in point `t`'s block iff its coordinate is in the block's range. -/
theorem mem_blk (t : Fin cfg1.N) (i : S4096.Idx) :
    i ∈ ((cfg1.win 3).blk t).view.set ↔ ∀ a : Fin 1, win1_3.index t a * S256.size a ≤ (i a).val ∧ (i a).val < win1_3.index t a * S256.size a + S256.size a := by
  show i ∈ ((View.whole main_v1).slice (win1_3.rect t)).set ↔ _
  rw [View.set_slice_whole, Rect.mem_set_unit]
  exact Iff.rfl

/-- Every index of the result lies in the block of the point of its tile. -/
theorem cover (i : S4096.Idx) :
    ∃ t : Fin cfg1.N, (cfg1.win 3).flush t = true ∧ i ∈ ((cfg1.win 3).blk t).view.set := by
  have h0 : (i 0).val < 4096 := (i 0).isLt
  obtain ⟨t, ht⟩ := index_onto ⟨(i 0).val / 256, by omega⟩
  have q0 : win1_3.index t (0 : Fin 1) = (i 0).val / 256 := congrFun ht 0
  refine ⟨t, flush1_3 t, ?_⟩
  rw [mem_blk]
  intro a
  match a with
  | ⟨0, _⟩ => show win1_3.index t (0 : Fin 1) * 256 ≤ (i 0).val ∧ (i 0).val < win1_3.index t (0 : Fin 1) * 256 + 256; omega

/-- After the region the result array is `colNorm` of the arrays the region found. -/
theorem final (c : Dev nD) :
    (dat1 V c).arrAt 3 cfg1.N = colNorm (warr V c) (aarr V c) (barr V c) :=
  (dat1 V c).arrAt_eq_of_cover 3 (colNorm (warr V c) (aarr V c) (barr V c)) (fun t _ => flushed_eq V c t) cover

end Cert.Dora.NormBlocks

end
-- ==== Proof.KernelValue.lean ====
/-
  The idealized kernel's two results as functions of its launch arguments.

  @main runs the low-rank region and then the norm region. The contents of every buffer after the two regions are a
  fold over the launch memory: the first region replaces its result array by what its write-backs leave and keeps
  everything else; the second does the same to its own result array. So

    • the first result is what the first region left — the second region does not touch it — and that is `loraOut` of
      the activations, `A` and `B` as launched (`LoraBlocks.final` at the launch contents);
    • the second result is what the second region left, `colNorm` of the frozen weight, `A` and `B` as the second region
      finds them (`NormBlocks.final`), and the second region finds all three as launched: the first region only reads
      `A` and `B` and never holds the frozen weight.
-/
import proofs.«105120_j4243427688518_1_alg».proof.Proof.KernelRun
import proofs.«105120_j4243427688518_1_alg».proof.Proof.LoraBlocks
import proofs.«105120_j4243427688518_1_alg».proof.Proof.NormBlocks

set_option maxRecDepth 16384

noncomputable section

namespace Cert.Dora.KernelValue

open Cert.KernelIdeal Cert.KernelIdeal.Gen Idealize.ShloMosaic Idealize.ShloMosaic.TcCoe Idealize.SL.Sem Cert.Dora

variable (m : (ℓ : Loc nD τ sig) → Buf (Elt Ideal) ℓ) (ρ : Dev nD → PrngReg)

/-- The four argument arrays as launched, at their literal types. -/
abbrev xm (c : Dev nD) : XArr := m ((c.tc : Thread nD τ).loc main_arg0)
abbrev wm (c : Dev nD) : WArr := m ((c.tc : Thread nD τ).loc main_arg1)
abbrev am (c : Dev nD) : AArr := m ((c.tc : Thread nD τ).loc main_arg2)
abbrev bm (c : Dev nD) : BArr := m ((c.tc : Thread nD τ).loc main_arg3)

/-! ## The second region finds its three inputs as launched -/

theorem entry_w (c : Dev nD) : NormBlocks.warr (V1 m ρ) c = wm m c :=
  (W1_of_ne m ρ c main_arg1 (by decide)).trans rfl
theorem entry_a (c : Dev nD) : NormBlocks.aarr (V1 m ρ) c = am m c :=
  ((W1_arr m ρ c 1).trans (((dat0 (V0 m ρ) c).arrAt_in 1 rfl _).trans (A_eq0 (V0 m ρ) c 1))).trans rfl
theorem entry_b (c : Dev nD) : NormBlocks.barr (V1 m ρ) c = bm m c :=
  ((W1_arr m ρ c 2).trans (((dat0 (V0 m ρ) c).arrAt_in 2 rfl _).trans (A_eq0 (V0 m ρ) c 2))).trans rfl

/-! ## The two results at the last boundary -/

/-- The first result after both regions is the low-rank update of the launched activations. -/
theorem result_lora (c : Dev nD) :
    W2 m ρ c (Proc.devRef .tc main_v0) = loraOut (xm m c) (am m c) (bm m c) :=
  calc W2 m ρ c (Proc.devRef .tc main_v0)
    _ = W1 m ρ c (Proc.devRef .tc main_v0) := W2_of_ne m ρ c main_v0 (by decide)
    _ = (dat0 (V0 m ρ) c).arrAt 3 cfg0.N := W1_arr m ρ c 3
    _ = loraOut (LoraBlocks.xarr (V0 m ρ) c) (LoraBlocks.aarr (V0 m ρ) c) (LoraBlocks.barr (V0 m ρ) c) :=
        LoraBlocks.final (V0 m ρ) c
    _ = loraOut (xm m c) (am m c) (bm m c) := rfl

/-- The second result after both regions is the row norm of the launched frozen weight merged with `B · A`. -/
theorem result_norm (c : Dev nD) :
    W2 m ρ c (Proc.devRef .tc main_v1) = colNorm (wm m c) (am m c) (bm m c) :=
  calc W2 m ρ c (Proc.devRef .tc main_v1)
    _ = (dat1 (V1 m ρ) c).arrAt 3 cfg1.N := W2_arr m ρ c 3
    _ = colNorm (NormBlocks.warr (V1 m ρ) c) (NormBlocks.aarr (V1 m ρ) c) (NormBlocks.barr (V1 m ρ) c) :=
        NormBlocks.final (V1 m ρ) c
    _ = colNorm (wm m c) (am m c) (bm m c) := by rw [entry_w, entry_a, entry_b]

/-! ## The run -/

/-- Every weakly fair execution of the idealized kernel terminates with the first result at `loraOut`, the second at
    `colNorm`, of the launch arguments, and the arguments unchanged. -/
theorem run : θ_run defs (onTc (τ := τ) (main (F := Ideal))) ⟨m, fun _ => 0, ρ⟩ (fun r => ∀ c : Dev nD,
      r.2.mem ((c.tc : Thread nD τ).loc main_v0) = loraOut (xm m c) (am m c) (bm m c)
      ∧ r.2.mem ((c.tc : Thread nD τ).loc main_v1) = colNorm (wm m c) (am m c) (bm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨(h c).1.trans (result_lora m ρ c), (h c).2.1.trans (result_norm m ρ c), (h c).2.2⟩)
    (Cert.KernelIdeal.Named.run_named m ρ)

end Cert.Dora.KernelValue

end
-- ==== Proof.lean ====
/-
  DoRA forward, two results: the low-rank update applied to the activations,
      out[b, s, o] = ∑ r, (∑ i, x[b, s, i] · A[r, i]) · B[o, r],
  and the row norms of the merged weight,
      norm[o] = √ (∑ i, (W[o, i] + ∑ r, B[o, r] · A[r, i])²).

  The kernel computes the first in a grid of 4 × 8 blocks of 256 activation rows (two products into zero accumulators,
  the operands passed through a narrower float format) and the second in 16 blocks of 256 weight rows (one such
  product, an add, a square, a lane sum from zero, a square root); the reference computes both with whole-array
  contractions. Over the extended reals a change of float format is the identity, a product into a zero accumulator and
  a contraction are the same finite sum of products, a lane sum from zero and a reduction from zero are the same finite
  sum, and the kernel's and the host's square roots are one function. So both programs compute the two formulas above
  with the same grouping of the sums, entry by entry, and no law beyond that is needed: in particular nothing is
  distributed over a sum, and the finiteness of the inputs is never used.

  `Proof/Spec.lean` states the two formulas; `Proof/RefValue.lean` reads the reference as them; `Proof/LoraBody.lean`
  and `Proof/NormBody.lean` read each kernel body's stored block entry by entry; `Proof/LoraBlocks.lean` and
  `Proof/NormBlocks.lean` go from the blocks to the whole result arrays; `Proof/KernelValue.lean` carries them through
  the two regions of @main. The kernel's own idealization rewrote nothing, so that conjunct is trivial.
-/
import proofs.«105120_j4243427688518_1_alg».proof.Defs
import proofs.«105120_j4243427688518_1_alg».proof.Proof.Gen.Kernel
import proofs.«105120_j4243427688518_1_alg».proof.Proof.Gen.Kernel.Skeleton
import proofs.«105120_j4243427688518_1_alg».proof.Proof.Gen.Kernel.Launch
import proofs.«105120_j4243427688518_1_alg».proof.Proof.Gen.Kernel.Points
import proofs.«105120_j4243427688518_1_alg».proof.Proof.Gen.Kernel.Frame
import proofs.«105120_j4243427688518_1_alg».proof.Proof.Gen.KernelIdeal
import proofs.«105120_j4243427688518_1_alg».proof.Proof.Gen.KernelIdeal.Skeleton
import proofs.«105120_j4243427688518_1_alg».proof.Proof.Gen.KernelIdeal.Launch
import proofs.«105120_j4243427688518_1_alg».proof.Proof.Gen.KernelIdeal.Points
import proofs.«105120_j4243427688518_1_alg».proof.Proof.Gen.KernelIdeal.Frame
import proofs.«105120_j4243427688518_1_alg».proof.Proof.Gen.ReferenceIdeal
import proofs.«105120_j4243427688518_1_alg».proof.Proof.Gen.ReferenceIdeal.Run
import proofs.«105120_j4243427688518_1_alg».proof.Proof.Gen.ReferenceIdeal.Read
import proofs.«105120_j4243427688518_1_alg».proof.Proof.Gen.Pre_finite_inputs
import proofs.«105120_j4243427688518_1_alg».proof.Proof.RefValue
import proofs.«105120_j4243427688518_1_alg».proof.Proof.KernelValue
import Idealize.ShloMosaic.Adequacy
import Idealize.ShloMosaic.Init

noncomputable section

namespace Cert.Proof

open Idealize.ShloMosaic Idealize.SL.Sem Cert.Dora

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments both programs end with the first result at `loraOut` and the second
    at `colNorm` of those arguments: the kernel by its blocks carried through the two regions, the reference by its
    operations read one at a time. -/
theorem algebraic : Cert.algebraic_KernelIdeal_ReferenceIdeal := by
  intro m ρ m' ρ' _ hagree
  refine ⟨fun c => loraOut (KernelValue.xm m c) (KernelValue.am m c) (KernelValue.bm m c),
    fun c => colNorm (KernelValue.wm m c) (KernelValue.am m c) (KernelValue.bm m c), KernelValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v1_eq, (hagree c).1, (hagree c).2.2.1, (hagree c).2.2.2]
    exact RefValue.ref_lora _ _ _
  · rw [(h c).2.1, Cert.ReferenceIdeal.Read.val_main_v6_eq, (hagree c).2.1, (hagree c).2.2.1, (hagree c).2.2.2]
    exact RefValue.ref_norm _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
